-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S160000 : Shape := ⟨1, ![160000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x256 .f32 := Host.absf main_arg6
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : FVec F S50000x256 .f32) (main_arg2 : IVec S160000 32) (main_arg3 : IVec S160000 32) (main_arg4 : FVec F S256x512 .f32) (main_arg5 : FVec F S256 .f32) (main_arg6 : FVec F S1x256 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S100000x256 : Shape := ⟨2, ![100000, 256]⟩
abbrev S50000x256 : Shape := ⟨2, ![50000, 256]⟩
abbrev S160000 : Shape := ⟨1, ![160000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩
abbrev S160000x1 : Shape := ⟨2, ![160000, 1]⟩
abbrev S1x1 : Shape := ⟨2, ![1, 1]⟩
abbrev S160000x256 : Shape := ⟨2, ![160000, 256]⟩
abbrev S256x256 : Shape := ⟨2, ![256, 256]⟩
abbrev S256x1 : Shape := ⟨2, ![256, 1]⟩
abbrev S4000x256 : Shape := ⟨2, ![4000, 256]⟩
abbrev S4000x1 : Shape := ⟨2, ![4000, 1]⟩

abbrev nBuf : Space → Nat
  | .hbm => 67
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S160000, .i32⟩
  | .hbm, ⟨3, _⟩ => ⟨S160000, .i32⟩
  | .hbm, ⟨4, _⟩ => ⟨S256x512, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S1, .i32⟩
  | .hbm, ⟨17, _⟩ => ⟨S_, .i32⟩
  | .hbm, ⟨18, _⟩ => ⟨S160000x1, .i32⟩
  | .hbm, ⟨19, _⟩ => ⟨S160000x1, .i1⟩
  | .hbm, ⟨20, _⟩ => ⟨S1x1, .i32⟩
  | .hbm, ⟨21, _⟩ => ⟨S160000x1, .i32⟩
  | .hbm, ⟨22, _⟩ => ⟨S160000x1, .i1⟩
  | .hbm, ⟨23, _⟩ => ⟨S160000x1, .i1⟩
  | .hbm, ⟨24, _⟩ => ⟨S_, .i1⟩
  | .hbm, ⟨25, _⟩ => ⟨S160000, .i1⟩
  | .hbm, ⟨26, _⟩ => ⟨S160000x256, .f32⟩
  | .hbm, ⟨27, _⟩ => ⟨S160000x256, .i1⟩
  | .hbm, ⟨28, _⟩ => ⟨S_, .f32⟩
  | .hbm, ⟨29, _⟩ => ⟨S160000x256, .f32⟩
  | .hbm, ⟨30, _⟩ => ⟨S160000x256, .f32⟩
  | .hbm, ⟨31, _⟩ => ⟨S160000x256, .bf16⟩
  | .hbm, ⟨32, _⟩ => ⟨S_, .i32⟩
  | .hbm, ⟨33, _⟩ => ⟨S160000, .i32⟩
  | .hbm, ⟨34, _⟩ => ⟨S160000, .i1⟩
  | .hbm, ⟨35, _⟩ => ⟨S_, .i32⟩
  | .hbm, ⟨36, _⟩ => ⟨S160000, .i32⟩
  | .hbm, ⟨37, _⟩ => ⟨S160000, .i32⟩
  | .hbm, ⟨38, _⟩ => ⟨S160000, .i32⟩
  | .hbm, ⟨39, _⟩ => ⟨S160000x1, .i32⟩
  | .hbm, ⟨40, _⟩ => ⟨S1, .i32⟩
  | .hbm, ⟨41, _⟩ => ⟨S_, .i32⟩
  | .hbm, ⟨42, _⟩ => ⟨S160000x1, .i32⟩
  | .hbm, ⟨43, _⟩ => ⟨S160000x1, .i1⟩
  | .hbm, ⟨44, _⟩ => ⟨S1x1, .i32⟩
  | .hbm, ⟨45, _⟩ => ⟨S160000x1, .i32⟩
  | .hbm, ⟨46, _⟩ => ⟨S160000x1, .i1⟩
  | .hbm, ⟨47, _⟩ => ⟨S160000x1, .i1⟩
  | .hbm, ⟨48, _⟩ => ⟨S_, .i1⟩
  | .hbm, ⟨49, _⟩ => ⟨S160000, .i1⟩
  | .hbm, ⟨50, _⟩ => ⟨S160000x256, .f32⟩
  | .hbm, ⟨51, _⟩ => ⟨S160000x256, .i1⟩
  | .hbm, ⟨52, _⟩ => ⟨S_, .f32⟩
  | .hbm, ⟨53, _⟩ => ⟨S160000x256, .f32⟩
  | .hbm, ⟨54, _⟩ => ⟨S160000x256, .f32⟩
  | .hbm, ⟨55, _⟩ => ⟨S160000x256, .bf16⟩
  | .hbm, ⟨56, _⟩ => ⟨S256x256, .f32⟩
  | .hbm, ⟨57, _⟩ => ⟨S256x256, .f32⟩
  | .hbm, ⟨58, _⟩ => ⟨S256x256, .bf16⟩
  | .hbm, ⟨59, _⟩ => ⟨S256x256, .f32⟩
  | .hbm, ⟨60, _⟩ => ⟨S256x256, .f32⟩
  | .hbm, ⟨61, _⟩ => ⟨S256x256, .bf16⟩
  | .hbm, ⟨62, _⟩ => ⟨S256x1, .f32⟩
  | .hbm, ⟨63, _⟩ => ⟨S256x1, .bf16⟩
  | .hbm, ⟨64, _⟩ => ⟨S1x256, .f32⟩
  | .hbm, ⟨65, _⟩ => ⟨S1x1, .f32⟩
  | .hbm, ⟨66, _⟩ => ⟨S160000x1, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S256x256, .bf16⟩
  | .local _ .vmem, ⟨5, _⟩ => ⟨S256x256, .bf16⟩
  | .local _ .vmem, ⟨6, _⟩ => ⟨S256x1, .bf16⟩
  | .local _ .vmem, ⟨7, _⟩ => ⟨S1x256, .f32⟩
  | .local _ .vmem, ⟨8, _⟩ => ⟨S1x1, .f32⟩
  | .local _ .vmem, ⟨9, _⟩ => ⟨S4000x1, .f32⟩
  | .local _ .vmem, ⟨10, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x256_0 : S160000.BroadcastsInDim S160000x256 (![0] : Fin 1 → Fin S160000x256.rank)
  bcast_S_S160000x256 : S_.BroadcastsInDim S160000x256 (![] : Fin 0 → Fin S160000x256.rank)
  bitsLt_bf16_f32 : FTy.bits .bf16 < FTy.bits .f32
  slices_S256x512_S256x256_0_0 : S256x512.Slices ![0, 0] S256x256
  transposes_S256x256_S256x256_1_0 : S256x256.Transposes [1, 0] S256x256
  slices_S256x512_S256x256_0_256 : S256x512.Slices ![0, 256] S256x256
  transposes_S1x256_S256x1_1_0 : S1x256.Transposes [1, 0] S256x1
  shapeCasts_S256_S1x256 : S256.ShapeCasts S1x256
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S100000x256_S160000x1_S160000x256_1_0_n_n_0_1_1256_wf : GatherDims.WF S100000x256 S160000x1 S160000x256 [1] [0] [] [0] [] 1 ![1, 256]
  gather_S50000x256_S160000x1_S160000x256_1_0_n_n_0_1_1256_wf : GatherDims.WF S50000x256 S160000x1 S160000x256 [1] [0] [] [0] [] 1 ![1, 256]
  dot_S4000x256_S256x256_S4000x256_1_0_0_1_n_n_wf : DotDims.WF S4000x256 S256x256 S4000x256 [1] [0] [0] [1] [] []
  dot_S4000x256_S256x1_S4000x1_1_0_0_1_n_n_wf : DotDims.WF S4000x256 S256x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S160000x256.size a
  hwx0_0 : ∀ i : grid0.Coords, EltTy.bits .bf16 = 32 ∨ (Rect.block (s := S160000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S160000x256.size a
  hwx0_1 : ∀ i : grid0.Coords, EltTy.bits .bf16 = 32 ∨ (Rect.block (s := S160000x256) S4000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .bf16 = 32 ∨ (Rect.block (s := S256x1) S256x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x1.size a ≤ S160000x1.size a
  hwx0_7 : ∀ i : grid0.Coords, EltTy.bits .f32 = 32 ∨ (Rect.block (s := S160000x1) S4000x1.size (cc0_transform_7 i) (hinb0_7 i)).WholeWords (EltTy.packing .f32)

variable [Facts₀]

def gather_S100000x256_S160000x1_S160000x256_1_0_n_n_0_1_1256 : GatherDims S100000x256 S160000x1 S160000x256 where
  offsetDims := [1]
  collapsedSliceDims := [0]
  operandBatchingDims := []
  startIndicesBatchingDims := []
  startIndexMap := [0]
  indexVectorDim := 1
  sliceSizes := ![1, 256]
  wf := gather_S100000x256_S160000x1_S160000x256_1_0_n_n_0_1_1256_wf
def gather_S50000x256_S160000x1_S160000x256_1_0_n_n_0_1_1256 : GatherDims S50000x256 S160000x1 S160000x256 where
  offsetDims := [1]
  collapsedSliceDims := [0]
  operandBatchingDims := []
  startIndicesBatchingDims := []
  startIndexMap := [0]
  indexVectorDim := 1
  sliceSizes := ![1, 256]
  wf := gather_S50000x256_S160000x1_S160000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf

abbrev win0_0 : Pipeline.Window sig grid0 :=
  Pipeline.Window.ofSpec (Memref.whole main_v1) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S4000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S50000x256 : Shape := ⟨2, ![50000, 256]⟩
abbrev S160000 : Shape := ⟨1, ![160000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩
abbrev S160000x1 : Shape := ⟨2, ![160000, 1]⟩
abbrev S1x1 : Shape := ⟨2, ![1, 1]⟩
abbrev S160000x256 : Shape := ⟨2, ![160000, 256]⟩
abbrev S160000x512 : Shape := ⟨2, ![160000, 512]⟩
abbrev S512x256 : Shape := ⟨2, ![512, 256]⟩
abbrev S256x1 : Shape := ⟨2, ![256, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S160000, .i32⟩
  | .hbm, ⟨3, _⟩ => ⟨S160000, .i32⟩
  | .hbm, ⟨4, _⟩ => ⟨S256x512, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S1, .i32⟩
  | .hbm, ⟨17, _⟩ => ⟨S_, .i32⟩
  | .hbm, ⟨18, _⟩ => ⟨S160000x1, .i32⟩
  | .hbm, ⟨19, _⟩ => ⟨S160000x1, .i1⟩
  | .hbm, ⟨20, _⟩ => ⟨S1x1, .i32⟩
  | .hbm, ⟨21, _⟩ => ⟨S160000x1, .i32⟩
  | .hbm, ⟨22, _⟩ => ⟨S160000x1, .i1⟩
  | .hbm, ⟨23, _⟩ => ⟨S160000x1, .i1⟩
  | .hbm, ⟨24, _⟩ => ⟨S_, .i1⟩
  | .hbm, ⟨25, _⟩ => ⟨S160000, .i1⟩
  | .hbm, ⟨26, _⟩ => ⟨S160000x256, .f32⟩
  | .hbm, ⟨27, _⟩ => ⟨S160000x256, .i1⟩
  | .hbm, ⟨28, _⟩ => ⟨S_, .f32⟩
  | .hbm, ⟨29, _⟩ => ⟨S160000x256, .f32⟩
  | .hbm, ⟨30, _⟩ => ⟨S160000x256, .f32⟩
  | .hbm, ⟨31, _⟩ => ⟨S_, .i32⟩
  | .hbm, ⟨32, _⟩ => ⟨S160000, .i32⟩
  | .hbm, ⟨33, _⟩ => ⟨S160000, .i1⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S160000x1, .i32⟩
  | .hbm, ⟨39, _⟩ => ⟨S1, .i32⟩
  | .hbm, ⟨40, _⟩ => ⟨S_, .i32⟩
  | .hbm, ⟨41, _⟩ => ⟨S160000x1, .i32⟩
  | .hbm, ⟨42, _⟩ => ⟨S160000x1, .i1⟩
  | .hbm, ⟨43, _⟩ => ⟨S1x1, .i32⟩
  | .hbm, ⟨44, _⟩ => ⟨S160000x1, .i32⟩
  | .hbm, ⟨45, _⟩ => ⟨S160000x1, .i1⟩
  | .hbm, ⟨46, _⟩ => ⟨S160000x1, .i1⟩
  | .hbm, ⟨47, _⟩ => ⟨S_, .i1⟩
  | .hbm, ⟨48, _⟩ => ⟨S160000, .i1⟩
  | .hbm, ⟨49, _⟩ => ⟨S160000x256, .f32⟩
  | .hbm, ⟨50, _⟩ => ⟨S160000x256, .i1⟩
  | .hbm, ⟨51, _⟩ => ⟨S_, .f32⟩
  | .hbm, ⟨52, _⟩ => ⟨S160000x256, .f32⟩
  | .hbm, ⟨53, _⟩ => ⟨S160000x256, .f32⟩
  | .hbm, ⟨54, _⟩ => ⟨S160000x512, .f32⟩
  | .hbm, ⟨55, _⟩ => ⟨S512x256, .f32⟩
  | .hbm, ⟨56, _⟩ => ⟨S160000x256, .f32⟩
  | .hbm, ⟨57, _⟩ => ⟨S1x256, .f32⟩
  | .hbm, ⟨58, _⟩ => ⟨S160000x256, .f32⟩
  | .hbm, ⟨59, _⟩ => ⟨S160000x256, .f32⟩
  | .hbm, ⟨60, _⟩ => ⟨S_, .f32⟩
  | .hbm, ⟨61, _⟩ => ⟨S160000x256, .f32⟩
  | .hbm, ⟨62, _⟩ => ⟨S160000x256, .f32⟩
  | .hbm, ⟨63, _⟩ => ⟨S256x1, .f32⟩
  | .hbm, ⟨64, _⟩ => ⟨S160000x1, .f32⟩
  | .hbm, ⟨65, _⟩ => ⟨S1x1, .f32⟩
  | .hbm, ⟨66, _⟩ => ⟨S160000x1, .f32⟩
  | .hbm, ⟨67, _⟩ => ⟨S160000x1, .f32⟩
  | .hbm, ⟨68, _⟩ => ⟨S160000x1, .f32⟩
  | .hbm, ⟨69, _⟩ => ⟨S160000x1, .f32⟩
  | .hbm, ⟨70, _⟩ => ⟨S_, .f32⟩
  | .hbm, ⟨71, _⟩ => ⟨S160000x1, .f32⟩
  | .hbm, ⟨72, _⟩ => ⟨S160000x1, .f32⟩
  | .hbm, ⟨73, _⟩ => ⟨S_, .f32⟩
  | .hbm, ⟨74, _⟩ => ⟨S160000x1, .f32⟩
  | .hbm, ⟨75, _⟩ => ⟨S160000x1, .f32⟩
  | .hbm, ⟨76, _⟩ => ⟨S_, .f32⟩
  | .hbm, ⟨77, _⟩ => ⟨S160000x1, .f32⟩
  | .hbm, ⟨78, _⟩ => ⟨S160000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_cst : Ref sig .tc := ⟨.hbm, 60, rfl⟩
abbrev main_call2_v0 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst : Ref sig .tc := ⟨.hbm, 70, rfl⟩
abbrev main_v16 : Ref sig .tc := ⟨.hbm, 71, rfl⟩
abbrev main_v17 : Ref sig .tc := ⟨.hbm, 72, rfl⟩
abbrev main_cst_0 : Ref sig .tc := ⟨.hbm, 73, rfl⟩
abbrev main_v18 : Ref sig .tc := ⟨.hbm, 74, rfl⟩
abbrev main_v19 : Ref sig .tc := ⟨.hbm, 75, rfl⟩
abbrev main_cst_1 : Ref sig .tc := ⟨.hbm, 76, rfl⟩
abbrev main_v20 : Ref sig .tc := ⟨.hbm, 77, rfl⟩
abbrev main_v21 : Ref sig .tc := ⟨.hbm, 78, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x256_0 : S160000.BroadcastsInDim S160000x256 (![0] : Fin 1 → Fin S160000x256.rank)
  bcast_S_S160000x256 : S_.BroadcastsInDim S160000x256 (![] : Fin 0 → Fin S160000x256.rank)
  concatenates_S160000x256_S160000x256_S160000x512_d1 : Shape.Concatenates [S160000x256, S160000x256] S160000x512 1
  transposes_S256x512_S512x256_1_0 : S256x512.Transposes [1, 0] S512x256
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  transposes_S1x256_S256x1_1_0 : S1x256.Transposes [1, 0] S256x1
  gather_S100000x256_S160000x1_S160000x256_1_0_n_n_0_1_1256_wf : GatherDims.WF S100000x256 S160000x1 S160000x256 [1] [0] [] [0] [] 1 ![1, 256]
  gather_S50000x256_S160000x1_S160000x256_1_0_n_n_0_1_1256_wf : GatherDims.WF S50000x256 S160000x1 S160000x256 [1] [0] [] [0] [] 1 ![1, 256]
  dot_S160000x512_S512x256_S160000x256_1_0_0_1_n_n_wf : DotDims.WF S160000x512 S512x256 S160000x256 [1] [0] [0] [1] [] []
  dot_S160000x256_S256x1_S160000x1_1_0_0_1_n_n_wf : DotDims.WF S160000x256 S256x1 S160000x1 [1] [0] [0] [1] [] []

variable [Facts₀]

def gather_S100000x256_S160000x1_S160000x256_1_0_n_n_0_1_1256 : GatherDims S100000x256 S160000x1 S160000x256 where
  offsetDims := [1]
  collapsedSliceDims := [0]
  operandBatchingDims := []
  startIndicesBatchingDims := []
  startIndexMap := [0]
  indexVectorDim := 1
  sliceSizes := ![1, 256]
  wf := gather_S100000x256_S160000x1_S160000x256_1_0_n_n_0_1_1256_wf
def gather_S50000x256_S160000x1_S160000x256_1_0_n_n_0_1_1256 : GatherDims S50000x256 S160000x1 S160000x256 where
  offsetDims := [1]
  collapsedSliceDims := [0]
  operandBatchingDims := []
  startIndicesBatchingDims := []
  startIndexMap := [0]
  indexVectorDim := 1
  sliceSizes := ![1, 256]
  wf := gather_S50000x256_S160000x1_S160000x256_1_0_n_n_0_1_1256_wf
def dot_S160000x512_S512x256_S160000x256_1_0_0_1_n_n : DotDims S160000x512 S512x256 S160000x256 where
  lhsContracting := [1]
  rhsContracting := [0]
  lhsNonContracting := [0]
  rhsNonContracting := [1]
  lhsBatch := []
  rhsBatch := []
  wf := dot_S160000x512_S512x256_S160000x256_1_0_0_1_n_n_wf
def dot_S160000x256_S256x1_S160000x1_1_0_0_1_n_n : DotDims S160000x256 S256x1 S160000x1 where
  lhsContracting := [1]
  rhsContracting := [0]
  lhsNonContracting := [0]
  rhsNonContracting := [1]
  lhsBatch := []
  rhsBatch := []
  wf := dot_S160000x256_S256x1_S160000x1_1_0_0_1_n_n_wf

class Facts : Prop extends Facts₀ where

variable [Facts]
-- ==== Proof.KHost.lean ====
/-
  What the kernel's windows find in their arrays when the region is entered.

  Before the region the host gathers the user rows and the item rows exactly as the reference does (`rowsU`, `rowsI`:
  a negative index wrapped, the row taken where the wrapped index is in range, the quiet-NaN word elsewhere) and
  narrows them; cuts the first layer W1 : [256, 512] into its left and right halves, transposes each and narrows it;
  transposes and narrows the second layer; and lays the two biases out as a row and as a single entry. At the exact
  instance narrowing changes nothing, so these are the arrays the score is a function of.
-/
import proofs.«104762_j64656437674425_1_alg».proof.Proof.Gen.KernelIdeal.Frame
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The user rows gathered: a negative index wrapped by the table's height, the row taken where the wrapped index is in the table's range, the quiet-NaN word where it is not. -/
def rowsU (tab : (⟨S100000x256, .f32⟩ : BufTy).Contents (Elt F)) (idx : (⟨S160000, .i32⟩ : BufTy).Contents (Elt F)) :
    (⟨S160000x256, .f32⟩ : BufTy).Contents (Elt F) :=
  select
    (broadcastInDim S160000x256 ![0] bcast_S160000_S160000x256_0
      (Host.reduce IntOp.andi
        (andi (cmpi .sge (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 100000#32))) idx)) (broadcastInDim S160000x1 ![] bcast_S_S160000x1 (constantI S_ 32 0#32)))
          (cmpi .sle (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 100000#32))) idx)) (broadcastInDim S160000x1 ![0, 1] bcast_S1x1_S160000x1_0_1 (broadcastInDim S1x1 ![1] bcast_S1_S1x1_1 (constantI S1 32 99999#32)))))
        (constantI S_ 1 1#1) reducesTo_S160000x1_S160000_d1 h_S_))
    (Host.gather gather_S100000x256_S160000x1_S160000x256_1_0_n_n_0_1_1256 tab (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 100000#32))) idx)))
    (broadcastInDim S160000x256 ![] bcast_S_S160000x256 (constant S_ .f32 0x7FC00000#32))

/-- The item rows gathered, likewise. -/
def rowsI (tab : (⟨S50000x256, .f32⟩ : BufTy).Contents (Elt F)) (idx : (⟨S160000, .i32⟩ : BufTy).Contents (Elt F)) :
    (⟨S160000x256, .f32⟩ : BufTy).Contents (Elt F) :=
  select
    (broadcastInDim S160000x256 ![0] bcast_S160000_S160000x256_0
      (Host.reduce IntOp.andi
        (andi (cmpi .sge (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 50000#32))) idx)) (broadcastInDim S160000x1 ![] bcast_S_S160000x1 (constantI S_ 32 0#32)))
          (cmpi .sle (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 50000#32))) idx)) (broadcastInDim S160000x1 ![0, 1] bcast_S1x1_S160000x1_0_1 (broadcastInDim S1x1 ![1] bcast_S1_S1x1_1 (constantI S1 32 49999#32)))))
        (constantI S_ 1 1#1) reducesTo_S160000x1_S160000_d1 h_S_))
    (Host.gather gather_S50000x256_S160000x1_S160000x256_1_0_n_n_0_1_1256 tab (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 50000#32))) idx)))
    (broadcastInDim S160000x256 ![] bcast_S_S160000x256 (constant S_ .f32 0x7FC00000#32))

variable (m : (ℓ : Loc nD τ sig) → Buf (Elt F) ℓ)

/-- Window 0's array: the gathered user rows, narrowed. -/
theorem V_v1 (c : Dev nD) : V m c main_v1 = truncf .bf16 (rowsU (m ((c : Thread nD τ).loc main_arg0)) (m ((c : Thread nD τ).loc main_arg2))) bitsLt_bf16_f32 := by
  unfold rowsU
  unfold V
  simp only [hostOps0, hostOps0_1, hostOps0_2, hostOps0_3, List.flatten_cons, List.flatten_nil, List.append_nil, List.cons_append, List.nil_append]
  after_results_simp <;> (try simp only [TRef.ofBuf, TRef.toBuf, cast_eq]) <;> rfl

/-- Window 1's array: the gathered item rows, narrowed. -/
theorem V_v3 (c : Dev nD) : V m c main_v3 = truncf .bf16 (rowsI (m ((c : Thread nD τ).loc main_arg1)) (m ((c : Thread nD τ).loc main_arg3))) bitsLt_bf16_f32 := by
  unfold rowsI
  unfold V
  simp only [hostOps0, hostOps0_1, hostOps0_2, hostOps0_3, List.flatten_cons, List.flatten_nil, List.append_nil, List.cons_append, List.nil_append]
  after_results_simp <;> (try simp only [TRef.ofBuf, TRef.toBuf, cast_eq]) <;> rfl

/-- Window 2's array: the left half of W1, transposed and narrowed. -/
theorem V_v6 (c : Dev nD) : V m c main_v6
    = truncf .bf16 (transpose S256x256 [1, 0] (extractStridedSlice S256x256 ![0, 0] (m ((c : Thread nD τ).loc main_arg4)) slices_S256x512_S256x256_0_0) transposes_S256x256_S256x256_1_0) bitsLt_bf16_f32 := by
  unfold V
  simp only [hostOps0, hostOps0_1, hostOps0_2, hostOps0_3, List.flatten_cons, List.flatten_nil, List.append_nil, List.cons_append, List.nil_append]
  after_results_simp <;> (try simp only [TRef.ofBuf, TRef.toBuf, cast_eq]) <;> rfl

/-- Window 3's array: the right half of W1, transposed and narrowed. -/
theorem V_v9 (c : Dev nD) : V m c main_v9
    = truncf .bf16 (transpose S256x256 [1, 0] (extractStridedSlice S256x256 ![0, 256] (m ((c : Thread nD τ).loc main_arg4)) slices_S256x512_S256x256_0_256) transposes_S256x256_S256x256_1_0) bitsLt_bf16_f32 := by
  unfold V
  simp only [hostOps0, hostOps0_1, hostOps0_2, hostOps0_3, List.flatten_cons, List.flatten_nil, List.append_nil, List.cons_append, List.nil_append]
  after_results_simp <;> (try simp only [TRef.ofBuf, TRef.toBuf, cast_eq]) <;> rfl

/-- Window 4's array: W2 transposed and narrowed. -/
theorem V_v11 (c : Dev nD) : V m c main_v11
    = truncf .bf16 (transpose S256x1 [1, 0] (m ((c : Thread nD τ).loc main_arg6)) transposes_S1x256_S256x1_1_0) bitsLt_bf16_f32 := by
  unfold V
  simp only [hostOps0, hostOps0_1, hostOps0_2, hostOps0_3, List.flatten_cons, List.flatten_nil, List.append_nil, List.cons_append, List.nil_append]
  after_results_simp <;> (try simp only [TRef.ofBuf, TRef.toBuf, cast_eq]) <;> rfl

/-- Window 5's array: the first bias as one row. -/
theorem V_v12 (c : Dev nD) : V m c main_v12 = shapeCast S1x256 (m ((c : Thread nD τ).loc main_arg5)) shapeCasts_S256_S1x256 := by
  unfold V
  simp only [hostOps0, hostOps0_1, hostOps0_2, hostOps0_3, List.flatten_cons, List.flatten_nil, List.append_nil, List.cons_append, List.nil_append]
  after_results_simp <;> (try simp only [TRef.ofBuf, TRef.toBuf, cast_eq]) <;> rfl

/-- Window 6's array: the second bias as one entry. -/
theorem V_v13 (c : Dev nD) : V m c main_v13 = shapeCast S1x1 (m ((c : Thread nD τ).loc main_arg7)) shapeCasts_S1_S1x1 := by
  unfold V
  simp only [hostOps0, hostOps0_1, hostOps0_2, hostOps0_3, List.flatten_cons, List.flatten_nil, List.append_nil, List.cons_append, List.nil_append]
  after_results_simp <;> (try simp only [TRef.ofBuf, TRef.toBuf, cast_eq]) <;> rfl

end Cert.KernelIdeal.Entry

end
-- ==== Proof.EdgeScore.lean ====
/-
  The edge score, as one function of the gathered rows and the weights.

  For an edge e with gathered user row xs[e, ·] and gathered item row xd[e, ·] (256 entries each), a first layer
  W1 : [256, 512] with bias b1 : [256], and a second layer W2 : [1, 256] with bias b2 : [1]:

    preact e j = (Σ_k xs[e,k] · W1[j,k]) + (Σ_k xd[e,k] · W1[j,256+k]) + b1[j]
    hidden e j = max (preact e j) 0
    logit e    = (Σ_j hidden e j · W2[0,j]) + b2[0]
    score e    = 1 / (1 + exp (-(logit e))) · 5

  all on the extended reals. The sum over the 512 columns of W1 against a row that is the two gathered rows laid side
  by side is the sum of the two half sums: addition of extended reals is commutative and associative, so a finite sum
  splits at any position, infinite terms or not (`sum_split`).
-/
import Idealize.ShloMosaic.PureOps.Ideal.Laws
import Idealize.ShloMosaic.Lib.ValueIdx

noncomputable section

open scoped BigOperators

namespace Cert.EdgeScore

open Idealize.ShloMosaic Idealize.ShloMosaic.ValueIdx

/-- Column k of the left half of a 512-wide row. -/
abbrev lo (k : Fin 256) : Fin 512 := ⟨k.val, by have := k.isLt; omega⟩
/-- Column k of the right half of a 512-wide row. -/
abbrev hi (k : Fin 256) : Fin 512 := ⟨256 + k.val, by have := k.isLt; omega⟩

/-- A sum over 512 columns is the sum over the left 256 plus the sum over the right 256, in any commutative monoid. -/
theorem sum_split {M : Type*} [AddCommMonoid M] (f : Fin 512 → M) :
    (∑ k : Fin 512, f k) = (∑ k : Fin 256, f (lo k)) + (∑ k : Fin 256, f (hi k)) :=
  Fin.sum_univ_add (a := 256) (b := 256) f

variable (xs xd : (⟨2, ![160000, 256]⟩ : Shape).Idx → EReal) (W1 : (⟨2, ![256, 512]⟩ : Shape).Idx → EReal)
  (b1 : (⟨1, ![256]⟩ : Shape).Idx → EReal) (W2 : (⟨2, ![1, 256]⟩ : Shape).Idx → EReal) (b2 : (⟨1, ![1]⟩ : Shape).Idx → EReal)

/-- Hidden unit j of edge e before the rectifier. -/
def preact (e : Fin 160000) (j : Fin 256) : EReal :=
  (∑ k : Fin 256, xs (ix2 e k) * W1 (ix2 j (lo k))) + (∑ k : Fin 256, xd (ix2 e k) * W1 (ix2 j (hi k))) + b1 (ix1 j)

/-- Hidden unit j of edge e: the rectifier against the f32 zero word. -/
def hidden (e : Fin 160000) (j : Fin 256) : EReal :=
  max (preact xs xd W1 b1 e j) (Ideal.ofBits .f32 0x00000000#32)

/-- The edge's logit. -/
def logit (e : Fin 160000) : EReal :=
  (∑ j : Fin 256, hidden xs xd W1 b1 e j * W2 (ix2 (0 : Fin 1) j)) + b2 (ix1 (0 : Fin 1))

/-- The edge's score: the logistic function of the logit, times the f32 word of 5. -/
def score : (⟨2, ![160000, 1]⟩ : Shape).Idx → EReal := fun i =>
  Ideal.logistic (logit xs xd W1 b1 W2 b2 (i 0)) * Ideal.ofBits .f32 0x40A00000#32

end Cert.EdgeScore

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.KPayload.lean ====
/-
  The kernel body's stored value at an index.

  The body multiplies its block of gathered user rows by the left half of the first layer (held transposed), its block of
  gathered item rows by the right half, adds the two products and the bias row, rectifies, multiplies by the second
  layer (held as a column), adds the second bias, and applies the logistic function times 5. At row r of the block this
  is the score of the edge e whose rows the block holds at r — provided the blocks hold what the hypotheses say: row r of
  the two row blocks is row e of the gathered arrays, entry (k, j) of the two weight blocks is W1[j, k] and
  W1[j, 256 + k], the bias row is b1, the column is W2's row, and the single entry is b2.
-/
import proofs.«104762_j64656437674425_1_alg».proof.Proof.Gen.KernelIdeal.Skeleton
import proofs.«104762_j64656437674425_1_alg».proof.Proof.EdgeScore
import proofs.«104762_j64656437674425_1_alg».proof.Proof.LibPlainDot
import proofs.«104762_j64656437674425_1_alg».proof.Proof.LibRowBias
import Idealize.ShloMosaic.Lib.Pipeline.Value
import Idealize.ShloMosaic.Lib.ValueLayout

noncomputable section

open scoped BigOperators

namespace Cert.KernelIdeal.Body

open Cert.KernelIdeal Cert.KernelIdeal.Gen Cert.EdgeScore Idealize.ShloMosaic Idealize.ShloMosaic.ValueIdx

/-- The first layer's two products are plain [4000, 256] by [256, 256] products. -/
theorem dot1_plain : dot_S4000x256_S256x256_S4000x256_1_0_0_1_n_n = DotDims.plain 4000 256 256 := rfl
/-- The second layer's product is a plain [4000, 256] by [256, 1] product. -/
theorem dot2_plain : dot_S4000x256_S256x1_S4000x1_1_0_0_1_n_n = DotDims.plain 4000 256 1 := rfl

theorem pay_eq_score (v0 v5 : Vec Ideal S4000x256 .bf16) (v2 v7 : Vec Ideal S256x256 .bf16) (v11 : Vec Ideal S1x256 .f32)
    (v18 : Vec Ideal S256x1 .bf16) (v21 : Vec Ideal S1x1 .f32)
    (xs xd : (⟨2, ![160000, 256]⟩ : Shape).Idx → EReal) (W1 : (⟨2, ![256, 512]⟩ : Shape).Idx → EReal)
    (b1 : (⟨1, ![256]⟩ : Shape).Idx → EReal) (W2 : (⟨2, ![1, 256]⟩ : Shape).Idx → EReal) (b2 : (⟨1, ![1]⟩ : Shape).Idx → EReal)
    (e : Fin 160000) (r : Fin 4000)
    (h0 : ∀ k : Fin 256, v0 (ix2 r k) = xs (ix2 e k)) (h5 : ∀ k : Fin 256, v5 (ix2 r k) = xd (ix2 e k))
    (h2 : ∀ k j : Fin 256, v2 (ix2 k j) = W1 (ix2 j (lo k))) (h7 : ∀ k j : Fin 256, v7 (ix2 k j) = W1 (ix2 j (hi k)))
    (h11 : ∀ j : Fin 256, v11 (ix2 (0 : Fin 1) j) = b1 (ix1 j)) (h18 : ∀ j : Fin 256, v18 (ix2 j (0 : Fin 1)) = W2 (ix2 (0 : Fin 1) j))
    (h21 : v21 (ix2 (0 : Fin 1) (0 : Fin 1)) = b2 (ix1 (0 : Fin 1))) :
    k0_pay1 (F := Ideal) v0 v2 v5 v7 v11 v18 v21 (ix2 r (0 : Fin 1)) = score xs xd W1 b1 W2 b2 (ix2 e (0 : Fin 1)) := by
  unfold k0_pay1
  simp only [shapeCast_self]
  rw [mulf_apply, broadcast_apply]
  unfold score
  change Ideal.logistic _ * _ = Ideal.logistic (logit xs xd W1 b1 W2 b2 e) * _
  refine congrArg₂ (· * ·) (congrArg Ideal.logistic ?_) rfl
  rw [addf_apply]
  unfold logit
  refine congrArg₂ (· + ·) ?_ ((Cert.RowBias.rows_apply v21 broadcasts_S1x1_S4000x1 r (0 : Fin 1)).trans h21)
  rw [dot2_plain]
  refine (Cert.PlainDot.matmul_zero_apply (φ₁ := .bf16) (φ₂ := .bf16) none _ v18 r (0 : Fin 1)).trans ?_
  refine Finset.sum_congr rfl fun j _ => ?_
  rw [h18 j, truncf_apply, maximumf_apply, broadcast_apply]
  unfold EdgeScore.hidden EdgeScore.preact
  refine congrArg (· * _) (congrArg₂ max ?_ rfl)
  rw [addf_apply, addf_apply, dot1_plain]
  refine congrArg₂ (· + ·) (congrArg₂ (· + ·) ?_ ?_) ((Cert.RowBias.rows_apply v11 broadcasts_S1x256_S4000x256 r j).trans (h11 j))
  · refine (Cert.PlainDot.matmul_zero_apply (φ₁ := .bf16) (φ₂ := .bf16) none v0 v2 r j).trans (Finset.sum_congr rfl fun k _ => ?_)
    rw [h0 k, h2 k j]
  · refine (Cert.PlainDot.matmul_zero_apply (φ₁ := .bf16) (φ₂ := .bf16) none v5 v7 r j).trans (Finset.sum_congr rfl fun k _ => ?_)
    rw [h5 k, h7 k j]

/-- The same at any index of the [4000, 1] block: its row is the index's first coordinate and its one column is column 0. -/
theorem pay_eq_score_at (v0 v5 : Vec Ideal S4000x256 .bf16) (v2 v7 : Vec Ideal S256x256 .bf16) (v11 : Vec Ideal S1x256 .f32)
    (v18 : Vec Ideal S256x1 .bf16) (v21 : Vec Ideal S1x1 .f32)
    (xs xd : (⟨2, ![160000, 256]⟩ : Shape).Idx → EReal) (W1 : (⟨2, ![256, 512]⟩ : Shape).Idx → EReal)
    (b1 : (⟨1, ![256]⟩ : Shape).Idx → EReal) (W2 : (⟨2, ![1, 256]⟩ : Shape).Idx → EReal) (b2 : (⟨1, ![1]⟩ : Shape).Idx → EReal)
    (e : Fin 160000) (y : (⟨2, ![4000, 1]⟩ : Shape).Idx)
    (h0 : ∀ k : Fin 256, v0 (ix2 (y 0) k) = xs (ix2 e k)) (h5 : ∀ k : Fin 256, v5 (ix2 (y 0) k) = xd (ix2 e k))
    (h2 : ∀ k j : Fin 256, v2 (ix2 k j) = W1 (ix2 j (lo k))) (h7 : ∀ k j : Fin 256, v7 (ix2 k j) = W1 (ix2 j (hi k)))
    (h11 : ∀ j : Fin 256, v11 (ix2 (0 : Fin 1) j) = b1 (ix1 j)) (h18 : ∀ j : Fin 256, v18 (ix2 j (0 : Fin 1)) = W2 (ix2 (0 : Fin 1) j))
    (h21 : v21 (ix2 (0 : Fin 1) (0 : Fin 1)) = b2 (ix1 (0 : Fin 1))) :
    k0_pay1 (F := Ideal) v0 v2 v5 v7 v11 v18 v21 y = score xs xd W1 b1 W2 b2 (ix2 e (0 : Fin 1)) := by
  obtain ⟨r, u, rfl⟩ : ∃ (r : Fin 4000) (u : Fin 1), y = ix2 r u := ⟨y 0, y 1, eq_ix2 y⟩
  obtain rfl : u = 0 := Subsingleton.elim _ _
  exact pay_eq_score v0 v5 v2 v7 v11 v18 v21 xs xd W1 b1 W2 b2 e r h0 h5 h2 h7 h11 h18 h21

end Cert.KernelIdeal.Body

end
-- ==== Proof.KValue.lean ====
/-
  The kernel's output array after the run is the edge score of the launch memory.

  The grid has 40 points; point t works on edges 4000·t … 4000·t + 3999. Its two row blocks are rows
  4000·t + r of the gathered arrays, its other five blocks are the whole weight and bias arrays at every point, and it
  writes rows 4000·t + r of the output. So what point t writes back is block t of ONE array, the score of the
  gathered rows and the parameters; the 40 blocks cover the 160000 rows (edge e lies in block e / 4000); hence the
  output array ends as that score.
-/
import proofs.«104762_j64656437674425_1_alg».proof.Proof.Gen.KernelIdeal.Value
import proofs.«104762_j64656437674425_1_alg».proof.Proof.KHost
import proofs.«104762_j64656437674425_1_alg».proof.Proof.KPayload

set_option maxRecDepth 16384

noncomputable section

namespace Cert.KernelIdeal.Final

open Cert.KernelIdeal Cert.KernelIdeal.Gen Cert.EdgeScore Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The score array of core c's launch memory. -/
def G (c : Dev nD) : S160000x1.Idx → Elt Ideal .f32 :=
  score (Entry.rowsU (m ((c : Thread nD τ).loc main_arg0)) (m ((c : Thread nD τ).loc main_arg2))) (Entry.rowsI (m ((c : Thread nD τ).loc main_arg1)) (m ((c : Thread nD τ).loc main_arg3)))
    (m ((c : Thread nD τ).loc main_arg4)) (m ((c : Thread nD τ).loc main_arg5)) (m ((c : Thread nD τ).loc main_arg6)) (m ((c : Thread nD τ).loc main_arg7))

/-- The index maps over the grid: the two row windows and the output move with the point along the rows; the weight
    and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every row block of the output is some point's. -/
theorem idx_onto : ∀ q : Fin 40, ∃ t : Fin cfg0.N, win0_7.index t (0 : Fin 2) = q.val ∧ win0_7.index t (1 : Fin 2) = 0 :=
  (by decide +kernel : ∀ q : Fin 40, ∃ t : Fin grid0.N, win0_7.index t (0 : Fin 2) = q.val ∧ win0_7.index t (1 : Fin 2) = 0)

/-- Row r of point t's block of the narrowed user rows is row 4000·t + r of the gathered user rows. -/
theorem blk_user (c : Dev nD) (t : Fin cfg0.N) (r : Fin 4000) (k : Fin 256) (e : Fin 160000) (he : e.val = t.val * 4000 + r.val) :
    iblk m c 0 t (ix2 r k) = Entry.rowsU (m ((c : Thread nD τ).loc main_arg0)) (m ((c : Thread nD τ).loc main_arg2)) (ix2 e k) := by
  obtain ⟨f00, f01, -⟩ := idx_facts t
  have hk : k.val < 256 := k.isLt
  show V m c main_v1 (((cfg0.win 0).blk t).view.emb (ix2 r k)) = _
  rw [Entry.V_v1 m c, truncf_apply]
  exact congrArg _ (funext fun a => Fin.ext (by
      match a with
      | ⟨0, _⟩ => show win0_0.index t (0 : Fin 2) * 4000 + 1 * r.val = e.val; omega
      | ⟨1, _⟩ => show win0_0.index t (1 : Fin 2) * 256 + 1 * k.val = k.val; omega))

/-- Row r of point t's block of the narrowed item rows is row 4000·t + r of the gathered item rows. -/
theorem blk_item (c : Dev nD) (t : Fin cfg0.N) (r : Fin 4000) (k : Fin 256) (e : Fin 160000) (he : e.val = t.val * 4000 + r.val) :
    iblk m c 1 t (ix2 r k) = Entry.rowsI (m ((c : Thread nD τ).loc main_arg1)) (m ((c : Thread nD τ).loc main_arg3)) (ix2 e k) := by
  obtain ⟨-, -, f10, f11, -⟩ := idx_facts t
  have hk : k.val < 256 := k.isLt
  show V m c main_v3 (((cfg0.win 1).blk t).view.emb (ix2 r k)) = _
  rw [Entry.V_v3 m c, truncf_apply]
  exact congrArg _ (funext fun a => Fin.ext (by
      match a with
      | ⟨0, _⟩ => show win0_1.index t (0 : Fin 2) * 4000 + 1 * r.val = e.val; omega
      | ⟨1, _⟩ => show win0_1.index t (1 : Fin 2) * 256 + 1 * k.val = k.val; omega))

/-- Entry (k, j) of the left weight block is W1[j, k]. -/
theorem blk_w1a (c : Dev nD) (t : Fin cfg0.N) (k j : Fin 256) :
    iblk m c 2 t (ix2 k j) = (m ((c : Thread nD τ).loc main_arg4)) (ix2 j (lo k)) := by
  obtain ⟨-, -, -, -, f20, f21, -⟩ := idx_facts t
  have hk : k.val < 256 := k.isLt
  have hj : j.val < 256 := j.isLt
  show V m c main_v6 (((cfg0.win 2).blk t).view.emb (ix2 k j)) = _
  rw [Entry.V_v6 m c, truncf_apply]
  have hz : ((cfg0.win 2).blk t).view.emb (ix2 k j) = ix2 k j := funext fun a => Fin.ext (by
      match a with
      | ⟨0, _⟩ => show win0_2.index t (0 : Fin 2) * 256 + 1 * k.val = k.val; omega
      | ⟨1, _⟩ => show win0_2.index t (1 : Fin 2) * 256 + 1 * j.val = j.val; omega)
  rw [hz, transpose_ix2_apply]
  exact slice2_axis1_apply 0 _ slices_S256x512_S256x256_0_0 j k (lo k) (by show k.val = 0 + k.val; omega)

/-- Entry (k, j) of the right weight block is W1[j, 256 + k]. -/
theorem blk_w1b (c : Dev nD) (t : Fin cfg0.N) (k j : Fin 256) :
    iblk m c 3 t (ix2 k j) = (m ((c : Thread nD τ).loc main_arg4)) (ix2 j (hi k)) := by
  obtain ⟨-, -, -, -, -, -, f30, f31, -⟩ := idx_facts t
  have hk : k.val < 256 := k.isLt
  have hj : j.val < 256 := j.isLt
  show V m c main_v9 (((cfg0.win 3).blk t).view.emb (ix2 k j)) = _
  rw [Entry.V_v9 m c, truncf_apply]
  have hz : ((cfg0.win 3).blk t).view.emb (ix2 k j) = ix2 k j := funext fun a => Fin.ext (by
      match a with
      | ⟨0, _⟩ => show win0_3.index t (0 : Fin 2) * 256 + 1 * k.val = k.val; omega
      | ⟨1, _⟩ => show win0_3.index t (1 : Fin 2) * 256 + 1 * j.val = j.val; omega)
  rw [hz, transpose_ix2_apply]
  exact slice2_axis1_apply 256 _ slices_S256x512_S256x256_0_256 j k (hi k) rfl

/-- Entry (j, 0) of the second layer's column block is W2[0, j]. -/
theorem blk_w2 (c : Dev nD) (t : Fin cfg0.N) (j : Fin 256) :
    iblk m c 4 t (ix2 j (0 : Fin 1)) = (m ((c : Thread nD τ).loc main_arg6)) (ix2 (0 : Fin 1) j) := by
  obtain ⟨-, -, -, -, -, -, -, -, f40, f41, -⟩ := idx_facts t
  have hj : j.val < 256 := j.isLt
  show V m c main_v11 (((cfg0.win 4).blk t).view.emb (ix2 j (0 : Fin 1))) = _
  rw [Entry.V_v11 m c, truncf_apply]
  have hz : ((cfg0.win 4).blk t).view.emb (ix2 j (0 : Fin 1)) = ix2 j (0 : Fin 1) := funext fun a => Fin.ext (by
      match a with
      | ⟨0, _⟩ => show win0_4.index t (0 : Fin 2) * 256 + 1 * j.val = j.val; omega
      | ⟨1, _⟩ => show win0_4.index t (1 : Fin 2) * 1 + 1 * (0 : Fin 1).val = 0; omega)
  rw [hz, transpose_ix2_apply]

/-- Entry (0, j) of the bias row block is b1[j]. -/
theorem blk_b1 (c : Dev nD) (t : Fin cfg0.N) (j : Fin 256) :
    iblk m c 5 t (ix2 (0 : Fin 1) j) = (m ((c : Thread nD τ).loc main_arg5)) (ix1 j) := by
  obtain ⟨-, -, -, -, -, -, -, -, -, -, f50, f51, -⟩ := idx_facts t
  have hj : j.val < 256 := j.isLt
  show V m c main_v12 (((cfg0.win 5).blk t).view.emb (ix2 (0 : Fin 1) j)) = _
  rw [Entry.V_v12 m c]
  have hz : ((cfg0.win 5).blk t).view.emb (ix2 (0 : Fin 1) j) = ix2 (0 : Fin 1) j := funext fun a => Fin.ext (by
      match a with
      | ⟨0, _⟩ => show win0_5.index t (0 : Fin 2) * 1 + 1 * (0 : Fin 1).val = 0; omega
      | ⟨1, _⟩ => show win0_5.index t (1 : Fin 2) * 256 + 1 * j.val = j.val; omega)
  rw [hz]
  exact Cert.RowBias.ofVec_apply _ shapeCasts_S256_S1x256 j

/-- The single entry of the second bias block is b2[0]. -/
theorem blk_b2 (c : Dev nD) (t : Fin cfg0.N) :
    iblk m c 6 t (ix2 (0 : Fin 1) (0 : Fin 1)) = (m ((c : Thread nD τ).loc main_arg7)) (ix1 (0 : Fin 1)) := by
  obtain ⟨-, -, -, -, -, -, -, -, -, -, -, -, f60, f61, -⟩ := idx_facts t
  show V m c main_v13 (((cfg0.win 6).blk t).view.emb (ix2 (0 : Fin 1) (0 : Fin 1))) = _
  rw [Entry.V_v13 m c]
  have hz : ((cfg0.win 6).blk t).view.emb (ix2 (0 : Fin 1) (0 : Fin 1)) = ix2 (0 : Fin 1) (0 : Fin 1) := funext fun a => Fin.ext (by
      match a with
      | ⟨0, _⟩ => show win0_6.index t (0 : Fin 2) * 1 + 1 * (0 : Fin 1).val = 0; omega
      | ⟨1, _⟩ => show win0_6.index t (1 : Fin 2) * 1 + 1 * (0 : Fin 1).val = 0; omega)
  rw [hz]
  exact Cert.RowBias.ofVec_apply _ shapeCasts_S1_S1x1 (0 : Fin 1)

/-- What point t writes back is block t of the score array. -/
theorem flushed_eq (c : Dev nD) (t : Fin cfg0.N) :
    (dats m 0 c).flushed 7 t = ((cfg0.win 7).blk t).view.read (Elt Ideal) (G m c) := by
  rw [Value.flushed7]
  unfold out0_7
  rw [View.canon_unit_zero origin]
  simp only [View.ld_unit_zero (S := S4000x256) origin, View.ld_unit_zero (S := S256x256) origin, View.ld_unit_zero (S := S1x256) origin,
    View.ld_unit_zero (S := S256x1) origin, View.ld_unit_zero (S := S1x1) origin]
  obtain ⟨-, -, -, -, -, -, -, -, -, -, -, -, -, -, f70, f71⟩ := idx_facts t
  have ht : t.val < 40 := Nat.lt_of_lt_of_eq t.isLt N_0
  funext y
  have hy0 : (y 0).val < 4000 := (y 0).isLt
  have hy1 : (y 1).val < 1 := (y 1).isLt
  obtain ⟨e, he⟩ : ∃ e : Fin 160000, e.val = t.val * 4000 + (y 0).val := ⟨⟨t.val * 4000 + (y 0).val, by omega⟩, rfl⟩
  have hemb : ((cfg0.win 7).blk t).view.emb y = ix2 e (0 : Fin 1) := funext fun a => Fin.ext (by
      match a with
      | ⟨0, _⟩ => show win0_7.index t (0 : Fin 2) * 4000 + 1 * (y 0).val = e.val; omega
      | ⟨1, _⟩ => show win0_7.index t (1 : Fin 2) * 1 + 1 * (y 1).val = 0; omega)
  show k0_pay1 (iblk m c 0 t) (iblk m c 2 t) (iblk m c 1 t) (iblk m c 3 t) (iblk m c 5 t) (iblk m c 4 t) (iblk m c 6 t) y
    = G m c (((cfg0.win 7).blk t).view.emb y)
  rw [hemb]
  unfold G
  exact Body.pay_eq_score_at (iblk m c 0 t) (iblk m c 1 t) (iblk m c 2 t) (iblk m c 3 t) (iblk m c 5 t) (iblk m c 4 t) (iblk m c 6 t)
    _ _ _ _ _ _ e y (fun k => blk_user m c t (y 0) k e he) (fun k => blk_item m c t (y 0) k e he) (blk_w1a m c t) (blk_w1b m c t)
    (blk_b1 m c t) (blk_w2 m c t) (blk_b2 m c t)

/-- An index of the output array is in point t's block iff each coordinate is in the block's range on its axis. -/
theorem mem_blk (t : Fin cfg0.N) (i : S160000x1.Idx) :
    i ∈ ((cfg0.win 7).blk t).view.set ↔ ∀ a : Fin 2, win0_7.index t a * S4000x1.size a ≤ (i a).val ∧ (i a).val < win0_7.index t a * S4000x1.size a + S4000x1.size a := by
  show i ∈ ((View.whole main_v14).slice (win0_7.rect t)).set ↔ _
  rw [View.set_slice_whole, Rect.mem_set_unit]
  exact Iff.rfl

/-- Every index of the output array is in some point's block: edge e is in block e / 4000. -/
theorem cover (i : S160000x1.Idx) : ∃ t : Fin cfg0.N, (cfg0.win 7).flush t = true ∧ i ∈ ((cfg0.win 7).blk t).view.set := by
  have hi0 : (i 0).val < 160000 := (i 0).isLt
  have hi1 : (i 1).val < 1 := (i 1).isLt
  obtain ⟨t, q0, q1⟩ := idx_onto ⟨(i 0).val / 4000, by omega⟩
  have q0' : win0_7.index t (0 : Fin 2) = (i 0).val / 4000 := q0
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 1 ≤ (i 1).val ∧ (i 1).val < win0_7.index t (1 : Fin 2) * 1 + 1; omega

/-- The output array after the run is the score array. -/
theorem final (c : Dev nD) : (dats m 0 c).arrAt 7 cfg0.N = G m c :=
  (dats m 0 c).arrAt_eq_of_cover 7 (G m c) (fun t _ => flushed_eq m c t) cover

/-- Every weakly fair execution of the idealized kernel terminates with its result at the score array and its
    arguments unchanged. -/
theorem run : θ_run defs (onTc (τ := τ) (main (F := Ideal))) ⟨m, fun _ => 0, ρ⟩ fun r => ∀ c : Dev nD,
      r.2.mem ((c : Thread nD τ).loc main_v14) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Final

end
-- ==== Proof.RefOps.lean ====
/-
  The reference program as a straight line of host operations, in three stretches.

  Stretch A gathers the user rows: the index vector is wrapped (a negative index has the table's height added), laid
  out as a column, tested against the table's range, the rows gathered, and a row whose index is out of range
  replaced by the quiet-NaN word. Stretch B does the same for the item rows. Stretch C lays the two gathered arrays
  side by side, multiplies by the transposed first layer, adds the bias row, rectifies, multiplies by the transposed
  second layer, adds its bias, and takes 1 / (1 + exp (-x)) times 5. The calls of the gather, of its select and of the
  rectifier are written out at their call sites over each call's own buffers.
-/
import proofs.«104762_j64656437674425_1_alg».proof.Proof.Gen.ReferenceIdeal
import Idealize.ShloMosaic.Lib.StableHlo.Run
import Idealize.ShloMosaic.Lib.Pipeline.Frame

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Stretch A: the user rows gathered (23 operations). -/
abbrev opsA : List (HloOp τ sig (Elt F)) :=
  [ TRef.nullary main_call0.c (constantI S_ 32 0#32),
    TRef.unary main_call0.c main_call0.v0 (broadcastInDim S160000 ![] bcast_S_S160000),
    TRef.binary (.of main_arg2) main_call0.v0 main_call0.v1 (cmpi .slt),
    TRef.nullary main_call0.c_0 (constantI S_ 32 100000#32),
    TRef.unary main_call0.c_0 main_call0.v2 (broadcastInDim S160000 ![] bcast_S_S160000),
    TRef.binary (.of main_arg2) main_call0.v2 main_call0.v3 addi,
    TRef.ternary main_call0.v1 main_call0.v3 (.of main_arg2) main_call0.call0.v0 select,
    TRef.unary main_call0.call0.v0 main_call0.v5 (broadcastInDim S160000x1 ![0] bcast_S160000_S160000x1_0),
    TRef.nullary main_call0.c_1 (constantI S1 32 99999#32),
    TRef.nullary main_call0.c_2 (constantI S_ 32 0#32),
    TRef.unary main_call0.c_2 main_call0.v6 (broadcastInDim S160000x1 ![] bcast_S_S160000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S160000x1 ![0, 1] bcast_S1x1_S160000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S160000x1_S160000_d1 h_S_),
    TRef.binary (.of main_arg0) main_call0.v5 main_call0.v13 (fun x i => Host.gather gather_S100000x256_S160000x1_S160000x256_1_0_n_n_0_1_1256 x i),
    TRef.unary main_call0.v12 main_call0.v14 (broadcastInDim S160000x256 ![0] bcast_S160000_S160000x256_0),
    TRef.nullary main_call0.cst (constant S_ .f32 0x7FC00000#32),
    TRef.unary main_call0.cst main_call0.v15 (broadcastInDim S160000x256 ![] bcast_S_S160000x256),
    TRef.ternary main_call0.v14 main_call0.v13 main_call0.v15 main_call0.v16 select ]

/-- Stretch B: the item rows gathered (23 operations). -/
abbrev opsB : List (HloOp τ sig (Elt F)) :=
  [ TRef.nullary main_call1.c (constantI S_ 32 0#32),
    TRef.unary main_call1.c main_call1.v0 (broadcastInDim S160000 ![] bcast_S_S160000),
    TRef.binary (.of main_arg3) main_call1.v0 main_call1.v1 (cmpi .slt),
    TRef.nullary main_call1.c_0 (constantI S_ 32 50000#32),
    TRef.unary main_call1.c_0 main_call1.v2 (broadcastInDim S160000 ![] bcast_S_S160000),
    TRef.binary (.of main_arg3) main_call1.v2 main_call1.v3 addi,
    TRef.ternary main_call1.v1 main_call1.v3 (.of main_arg3) main_call1.call0.v0 select,
    TRef.unary main_call1.call0.v0 main_call1.v5 (broadcastInDim S160000x1 ![0] bcast_S160000_S160000x1_0),
    TRef.nullary main_call1.c_1 (constantI S1 32 49999#32),
    TRef.nullary main_call1.c_2 (constantI S_ 32 0#32),
    TRef.unary main_call1.c_2 main_call1.v6 (broadcastInDim S160000x1 ![] bcast_S_S160000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S160000x1 ![0, 1] bcast_S1x1_S160000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S160000x1_S160000_d1 h_S_),
    TRef.binary (.of main_arg1) main_call1.v5 main_call1.v13 (fun x i => Host.gather gather_S50000x256_S160000x1_S160000x256_1_0_n_n_0_1_1256 x i),
    TRef.unary main_call1.v12 main_call1.v14 (broadcastInDim S160000x256 ![0] bcast_S160000_S160000x256_0),
    TRef.nullary main_call1.cst (constant S_ .f32 0x7FC00000#32),
    TRef.unary main_call1.cst main_call1.v15 (broadcastInDim S160000x256 ![] bcast_S_S160000x256),
    TRef.ternary main_call1.v14 main_call1.v13 main_call1.v15 main_call1.v16 select ]

/-- Stretch C: the two layers and the logistic score (25 operations). -/
abbrev opsC : List (HloOp τ sig (Elt F)) :=
  [ binary main_v0 main_v1 main_v2 ((fun a b => concatenate S160000x512 1 [⟨S160000x256, a⟩, ⟨S160000x256, b⟩] concatenates_S160000x256_S160000x256_S160000x512_d1) : (⟨S160000x256, .f32⟩ : BufTy).Contents (Elt F) → (⟨S160000x256, .f32⟩ : BufTy).Contents (Elt F) → (⟨S160000x512, .f32⟩ : BufTy).Contents (Elt F)),
    unary main_arg4 main_v3 ((transpose S512x256 [1, 0] · transposes_S256x512_S512x256_1_0) : (⟨S256x512, .f32⟩ : BufTy).Contents (Elt F) → (⟨S512x256, .f32⟩ : BufTy).Contents (Elt F)),
    binary main_v2 main_v3 main_v4 ((fun l r => Host.dotGeneral dot_S160000x512_S512x256_S160000x256_1_0_0_1_n_n none l r) : (⟨S160000x512, .f32⟩ : BufTy).Contents (Elt F) → (⟨S512x256, .f32⟩ : BufTy).Contents (Elt F) → (⟨S160000x256, .f32⟩ : BufTy).Contents (Elt F)),
    unary main_arg5 main_v5 (broadcastInDim S1x256 ![1] bcast_S256_S1x256_1 : (⟨S256, .f32⟩ : BufTy).Contents (Elt F) → (⟨S1x256, .f32⟩ : BufTy).Contents (Elt F)),
    unary main_v5 main_v6 (broadcastInDim S160000x256 ![0, 1] bcast_S1x256_S160000x256_0_1 : (⟨S1x256, .f32⟩ : BufTy).Contents (Elt F) → (⟨S160000x256, .f32⟩ : BufTy).Contents (Elt F)),
    binary main_v4 main_v6 main_v7 (addf : (⟨S160000x256, .f32⟩ : BufTy).Contents (Elt F) → (⟨S160000x256, .f32⟩ : BufTy).Contents (Elt F) → (⟨S160000x256, .f32⟩ : BufTy).Contents (Elt F)),
    TRef.nullary main_call2.cst (constant S_ .f32 0x00000000#32),
    TRef.unary main_call2.cst main_call2.v0 (broadcastInDim S160000x256 ![] bcast_S_S160000x256),
    TRef.binary (.of main_v7) main_call2.v0 main_call2.v1 maximumf,
    unary main_arg6 main_v9 ((transpose S256x1 [1, 0] · transposes_S1x256_S256x1_1_0) : (⟨S1x256, .f32⟩ : BufTy).Contents (Elt F) → (⟨S256x1, .f32⟩ : BufTy).Contents (Elt F)),
    binary main_v8 main_v9 main_v10 ((fun l r => Host.dotGeneral dot_S160000x256_S256x1_S160000x1_1_0_0_1_n_n none l r) : (⟨S160000x256, .f32⟩ : BufTy).Contents (Elt F) → (⟨S256x1, .f32⟩ : BufTy).Contents (Elt F) → (⟨S160000x1, .f32⟩ : BufTy).Contents (Elt F)),
    unary main_arg7 main_v11 (broadcastInDim S1x1 ![1] bcast_S1_S1x1_1 : (⟨S1, .f32⟩ : BufTy).Contents (Elt F) → (⟨S1x1, .f32⟩ : BufTy).Contents (Elt F)),
    unary main_v11 main_v12 (broadcastInDim S160000x1 ![0, 1] bcast_S1x1_S160000x1_0_1 : (⟨S1x1, .f32⟩ : BufTy).Contents (Elt F) → (⟨S160000x1, .f32⟩ : BufTy).Contents (Elt F)),
    binary main_v10 main_v12 main_v13 (addf : (⟨S160000x1, .f32⟩ : BufTy).Contents (Elt F) → (⟨S160000x1, .f32⟩ : BufTy).Contents (Elt F) → (⟨S160000x1, .f32⟩ : BufTy).Contents (Elt F)),
    unary main_v13 main_v14 (Host.negf : (⟨S160000x1, .f32⟩ : BufTy).Contents (Elt F) → (⟨S160000x1, .f32⟩ : BufTy).Contents (Elt F)),
    unary main_v14 main_v15 (Host.exp : (⟨S160000x1, .f32⟩ : BufTy).Contents (Elt F) → (⟨S160000x1, .f32⟩ : BufTy).Contents (Elt F)),
    nullary main_cst (constant S_ .f32 0x3F800000#32),
    unary main_cst main_v16 (broadcastInDim S160000x1 ![] bcast_S_S160000x1 : (⟨S_, .f32⟩ : BufTy).Contents (Elt F) → (⟨S160000x1, .f32⟩ : BufTy).Contents (Elt F)),
    binary main_v16 main_v15 main_v17 (addf : (⟨S160000x1, .f32⟩ : BufTy).Contents (Elt F) → (⟨S160000x1, .f32⟩ : BufTy).Contents (Elt F) → (⟨S160000x1, .f32⟩ : BufTy).Contents (Elt F)),
    nullary main_cst_0 (constant S_ .f32 0x3F800000#32),
    unary main_cst_0 main_v18 (broadcastInDim S160000x1 ![] bcast_S_S160000x1 : (⟨S_, .f32⟩ : BufTy).Contents (Elt F) → (⟨S160000x1, .f32⟩ : BufTy).Contents (Elt F)),
    binary main_v18 main_v17 main_v19 (Host.divf : (⟨S160000x1, .f32⟩ : BufTy).Contents (Elt F) → (⟨S160000x1, .f32⟩ : BufTy).Contents (Elt F) → (⟨S160000x1, .f32⟩ : BufTy).Contents (Elt F)),
    nullary main_cst_1 (constant S_ .f32 0x40A00000#32),
    unary main_cst_1 main_v20 (broadcastInDim S160000x1 ![] bcast_S_S160000x1 : (⟨S_, .f32⟩ : BufTy).Contents (Elt F) → (⟨S160000x1, .f32⟩ : BufTy).Contents (Elt F)),
    binary main_v19 main_v20 main_v21 (mulf : (⟨S160000x1, .f32⟩ : BufTy).Contents (Elt F) → (⟨S160000x1, .f32⟩ : BufTy).Contents (Elt F) → (⟨S160000x1, .f32⟩ : BufTy).Contents (Elt F)) ]

/-- The whole line. -/
abbrev ops : List (HloOp τ sig (Elt F)) := opsA ++ (opsB ++ opsC)

set_option maxRecDepth 4096 in
/-- The printed reference is that line: the called functions opened at their calls, the sequencing re-associated. -/
theorem main_eq (c : Dev nD) : main (F := F) c = seq ops := by
  simp only [main, fn_take.body, fn_take_0.body, fn_where.body, fn_relu.body, ops, opsA, opsB, opsC, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub .., ternary_bufs_sub ..⟩
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub .., ternary_bufs_sub ..⟩
theorem opsC_sub : (opsC : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub .., nullary_bufs_sub .., unary_bufs_sub ..,
    binary_bufs_sub ..⟩

theorem ops_sub : (ops : List (HloOp τ sig (Elt F))).Forall fun op => op.bufs ⊆ tcRefs τ sig :=
  List.forall_append.mpr ⟨opsA_sub, List.forall_append.mpr ⟨opsB_sub, opsC_sub⟩⟩

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.mp h).elim (opsA_fresh op) fun h' => (List.mem_append.mp h').elim (opsB_fresh op) (opsC_fresh op)

/-- Every weakly fair execution of the reference terminates, and every buffer ends at the fold of the three stretches
    over its launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsC (after opsB (after opsA (launchContents m c))) (b : DevRef τ sig) := by
  have h := run_seq scopedRefs_eq scopedSems_eq defs main (fun _ => ops) main_eq (fun _ => ops_sub) m ρ (fun _ => ops_fresh)
  refine (θ_run defs _ _).mono (fun r hr c b => ?_) h
  rw [hr c b]
  show after (opsA ++ (opsB ++ opsC)) _ _ = _
  rw [after_append, after_append]

end Cert.ReferenceIdeal.Line

end
-- ==== Proof.RefTerm.lean ====
/-
  What each stretch of the reference leaves in its result buffer, as a pure function of what it reads.

  Stretch A leaves the gathered user rows: row e of the table at the wrapped index of edge e where that index is in
  range, the quiet-NaN word elsewhere (`rowsU`); stretch B the gathered item rows (`rowsI`). Stretch C leaves
  `scoreOf` of the two gathered arrays and the four parameter arrays. No stretch writes an argument array, and stretch B
  leaves stretch A's result where it is. Together: the reference ends with its result at
  `scoreOf (rowsU h_user src_idx) (rowsI h_item dst_idx) W1 b1 W2 b2` and its arguments unchanged.
-/
import proofs.«104762_j64656437674425_1_alg».proof.Proof.RefOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The user rows gathered: a negative index wrapped by the table's height, the row taken where the wrapped index is in the table's range, the quiet-NaN word where it is not. -/
def rowsU (tab : (⟨S100000x256, .f32⟩ : BufTy).Contents (Elt F)) (idx : (⟨S160000, .i32⟩ : BufTy).Contents (Elt F)) :
    (⟨S160000x256, .f32⟩ : BufTy).Contents (Elt F) :=
  select
    (broadcastInDim S160000x256 ![0] bcast_S160000_S160000x256_0
      (Host.reduce IntOp.andi
        (andi (cmpi .sge (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 100000#32))) idx)) (broadcastInDim S160000x1 ![] bcast_S_S160000x1 (constantI S_ 32 0#32)))
          (cmpi .sle (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 100000#32))) idx)) (broadcastInDim S160000x1 ![0, 1] bcast_S1x1_S160000x1_0_1 (broadcastInDim S1x1 ![1] bcast_S1_S1x1_1 (constantI S1 32 99999#32)))))
        (constantI S_ 1 1#1) reducesTo_S160000x1_S160000_d1 h_S_))
    (Host.gather gather_S100000x256_S160000x1_S160000x256_1_0_n_n_0_1_1256 tab (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 100000#32))) idx)))
    (broadcastInDim S160000x256 ![] bcast_S_S160000x256 (constant S_ .f32 0x7FC00000#32))

/-- The item rows gathered, likewise. -/
def rowsI (tab : (⟨S50000x256, .f32⟩ : BufTy).Contents (Elt F)) (idx : (⟨S160000, .i32⟩ : BufTy).Contents (Elt F)) :
    (⟨S160000x256, .f32⟩ : BufTy).Contents (Elt F) :=
  select
    (broadcastInDim S160000x256 ![0] bcast_S160000_S160000x256_0
      (Host.reduce IntOp.andi
        (andi (cmpi .sge (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 50000#32))) idx)) (broadcastInDim S160000x1 ![] bcast_S_S160000x1 (constantI S_ 32 0#32)))
          (cmpi .sle (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 50000#32))) idx)) (broadcastInDim S160000x1 ![0, 1] bcast_S1x1_S160000x1_0_1 (broadcastInDim S1x1 ![1] bcast_S1_S1x1_1 (constantI S1 32 49999#32)))))
        (constantI S_ 1 1#1) reducesTo_S160000x1_S160000_d1 h_S_))
    (Host.gather gather_S50000x256_S160000x1_S160000x256_1_0_n_n_0_1_1256 tab (broadcastInDim S160000x1 ![0] bcast_S160000_S160000x1_0 (select (cmpi .slt idx (broadcastInDim S160000 ![] bcast_S_S160000 (constantI S_ 32 0#32))) (addi idx (broadcastInDim S160000 ![] bcast_S_S160000 (constantI S_ 32 50000#32))) idx)))
    (broadcastInDim S160000x256 ![] bcast_S_S160000x256 (constant S_ .f32 0x7FC00000#32))

/-- The edge logits: the two layers, of the gathered rows and the parameters. -/
def logitOf (xs xd : (⟨S160000x256, .f32⟩ : BufTy).Contents (Elt F)) (W1 : (⟨S256x512, .f32⟩ : BufTy).Contents (Elt F))
    (b1 : (⟨S256, .f32⟩ : BufTy).Contents (Elt F)) (W2 : (⟨S1x256, .f32⟩ : BufTy).Contents (Elt F)) (b2 : (⟨S1, .f32⟩ : BufTy).Contents (Elt F)) :
    (⟨S160000x1, .f32⟩ : BufTy).Contents (Elt F) :=
  addf
    (Host.dotGeneral dot_S160000x256_S256x1_S160000x1_1_0_0_1_n_n none
      (maximumf
        (addf
          (Host.dotGeneral dot_S160000x512_S512x256_S160000x256_1_0_0_1_n_n none
            (concatenate S160000x512 1 [⟨S160000x256, xs⟩, ⟨S160000x256, xd⟩] concatenates_S160000x256_S160000x256_S160000x512_d1)
            (transpose S512x256 [1, 0] W1 transposes_S256x512_S512x256_1_0))
          (broadcastInDim S160000x256 ![0, 1] bcast_S1x256_S160000x256_0_1 (broadcastInDim S1x256 ![1] bcast_S256_S1x256_1 b1)))
        (broadcastInDim S160000x256 ![] bcast_S_S160000x256 (constant S_ .f32 0x00000000#32)))
      (transpose S256x1 [1, 0] W2 transposes_S1x256_S256x1_1_0))
    (broadcastInDim S160000x1 ![0, 1] bcast_S1x1_S160000x1_0_1 (broadcastInDim S1x1 ![1] bcast_S1_S1x1_1 b2))

/-- The score of a logit array: 1 / (1 + exp (-x)) entry by entry, times the f32 word of 5. -/
def sigmoid5 (x : (⟨S160000x1, .f32⟩ : BufTy).Contents (Elt F)) : (⟨S160000x1, .f32⟩ : BufTy).Contents (Elt F) :=
  mulf
    (Host.divf (broadcastInDim S160000x1 ![] bcast_S_S160000x1 (constant S_ .f32 0x3F800000#32))
      (addf (broadcastInDim S160000x1 ![] bcast_S_S160000x1 (constant S_ .f32 0x3F800000#32)) (Host.exp (Host.negf x))))
    (broadcastInDim S160000x1 ![] bcast_S_S160000x1 (constant S_ .f32 0x40A00000#32))

/-- The two layers and the logistic score, of the gathered rows and the parameters. -/
def scoreOf (xs xd : (⟨S160000x256, .f32⟩ : BufTy).Contents (Elt F)) (W1 : (⟨S256x512, .f32⟩ : BufTy).Contents (Elt F))
    (b1 : (⟨S256, .f32⟩ : BufTy).Contents (Elt F)) (W2 : (⟨S1x256, .f32⟩ : BufTy).Contents (Elt F)) (b2 : (⟨S1, .f32⟩ : BufTy).Contents (Elt F)) :
    (⟨S160000x1, .f32⟩ : BufTy).Contents (Elt F) :=
  sigmoid5 (logitOf xs xd W1 b1 W2 b2)

/-! ## Stretch A -/

theorem resA (W : Valuation τ sig (Elt F)) :
    after opsA W (main_v0 : DevRef τ sig) = rowsU (W (main_arg0 : DevRef τ sig)) (W (main_arg2 : DevRef τ sig)) := by
  unfold rowsU
  after_results_simp <;> (try simp only [TRef.ofBuf, TRef.toBuf, cast_eq]) <;> rfl

theorem keepA_main_arg0 (W : Valuation τ sig (Elt F)) : after opsA W (main_arg0 : DevRef τ sig) = W (main_arg0 : DevRef τ sig) := by after_results
theorem keepA_main_arg1 (W : Valuation τ sig (Elt F)) : after opsA W (main_arg1 : DevRef τ sig) = W (main_arg1 : DevRef τ sig) := by after_results
theorem keepA_main_arg2 (W : Valuation τ sig (Elt F)) : after opsA W (main_arg2 : DevRef τ sig) = W (main_arg2 : DevRef τ sig) := by after_results
theorem keepA_main_arg3 (W : Valuation τ sig (Elt F)) : after opsA W (main_arg3 : DevRef τ sig) = W (main_arg3 : DevRef τ sig) := by after_results
theorem keepA_main_arg4 (W : Valuation τ sig (Elt F)) : after opsA W (main_arg4 : DevRef τ sig) = W (main_arg4 : DevRef τ sig) := by after_results
theorem keepA_main_arg5 (W : Valuation τ sig (Elt F)) : after opsA W (main_arg5 : DevRef τ sig) = W (main_arg5 : DevRef τ sig) := by after_results
theorem keepA_main_arg6 (W : Valuation τ sig (Elt F)) : after opsA W (main_arg6 : DevRef τ sig) = W (main_arg6 : DevRef τ sig) := by after_results
theorem keepA_main_arg7 (W : Valuation τ sig (Elt F)) : after opsA W (main_arg7 : DevRef τ sig) = W (main_arg7 : DevRef τ sig) := by after_results

/-! ## Stretch B -/

theorem resB (W : Valuation τ sig (Elt F)) :
    after opsB W (main_v1 : DevRef τ sig) = rowsI (W (main_arg1 : DevRef τ sig)) (W (main_arg3 : DevRef τ sig)) := by
  unfold rowsI
  after_results_simp <;> (try simp only [TRef.ofBuf, TRef.toBuf, cast_eq]) <;> rfl

theorem keepB_main_v0 (W : Valuation τ sig (Elt F)) : after opsB W (main_v0 : DevRef τ sig) = W (main_v0 : DevRef τ sig) := by after_results
theorem keepB_main_arg0 (W : Valuation τ sig (Elt F)) : after opsB W (main_arg0 : DevRef τ sig) = W (main_arg0 : DevRef τ sig) := by after_results
theorem keepB_main_arg1 (W : Valuation τ sig (Elt F)) : after opsB W (main_arg1 : DevRef τ sig) = W (main_arg1 : DevRef τ sig) := by after_results
theorem keepB_main_arg2 (W : Valuation τ sig (Elt F)) : after opsB W (main_arg2 : DevRef τ sig) = W (main_arg2 : DevRef τ sig) := by after_results
theorem keepB_main_arg3 (W : Valuation τ sig (Elt F)) : after opsB W (main_arg3 : DevRef τ sig) = W (main_arg3 : DevRef τ sig) := by after_results
theorem keepB_main_arg4 (W : Valuation τ sig (Elt F)) : after opsB W (main_arg4 : DevRef τ sig) = W (main_arg4 : DevRef τ sig) := by after_results
theorem keepB_main_arg5 (W : Valuation τ sig (Elt F)) : after opsB W (main_arg5 : DevRef τ sig) = W (main_arg5 : DevRef τ sig) := by after_results
theorem keepB_main_arg6 (W : Valuation τ sig (Elt F)) : after opsB W (main_arg6 : DevRef τ sig) = W (main_arg6 : DevRef τ sig) := by after_results
theorem keepB_main_arg7 (W : Valuation τ sig (Elt F)) : after opsB W (main_arg7 : DevRef τ sig) = W (main_arg7 : DevRef τ sig) := by after_results

/-! ## Stretch C -/

theorem resC (W : Valuation τ sig (Elt F)) :
    after opsC W (main_v21 : DevRef τ sig)
      = scoreOf (W (main_v0 : DevRef τ sig)) (W (main_v1 : DevRef τ sig)) (W (main_arg4 : DevRef τ sig)) (W (main_arg5 : DevRef τ sig))
          (W (main_arg6 : DevRef τ sig)) (W (main_arg7 : DevRef τ sig)) := by
  unfold scoreOf sigmoid5 logitOf
  after_results_simp <;> (try simp only [TRef.ofBuf, TRef.toBuf, cast_eq]) <;> rfl

theorem keepC_main_arg0 (W : Valuation τ sig (Elt F)) : after opsC W (main_arg0 : DevRef τ sig) = W (main_arg0 : DevRef τ sig) := by after_results
theorem keepC_main_arg1 (W : Valuation τ sig (Elt F)) : after opsC W (main_arg1 : DevRef τ sig) = W (main_arg1 : DevRef τ sig) := by after_results
theorem keepC_main_arg2 (W : Valuation τ sig (Elt F)) : after opsC W (main_arg2 : DevRef τ sig) = W (main_arg2 : DevRef τ sig) := by after_results
theorem keepC_main_arg3 (W : Valuation τ sig (Elt F)) : after opsC W (main_arg3 : DevRef τ sig) = W (main_arg3 : DevRef τ sig) := by after_results
theorem keepC_main_arg4 (W : Valuation τ sig (Elt F)) : after opsC W (main_arg4 : DevRef τ sig) = W (main_arg4 : DevRef τ sig) := by after_results
theorem keepC_main_arg5 (W : Valuation τ sig (Elt F)) : after opsC W (main_arg5 : DevRef τ sig) = W (main_arg5 : DevRef τ sig) := by after_results
theorem keepC_main_arg6 (W : Valuation τ sig (Elt F)) : after opsC W (main_arg6 : DevRef τ sig) = W (main_arg6 : DevRef τ sig) := by after_results
theorem keepC_main_arg7 (W : Valuation τ sig (Elt F)) : after opsC W (main_arg7 : DevRef τ sig) = W (main_arg7 : DevRef τ sig) := by after_results

/-! ## The run -/

/-- Every weakly fair execution of the reference terminates with its result at the score of the gathered rows and its
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
          = scoreOf (rowsU (m ((c.tc : Thread nD τ).loc main_arg0)) (m ((c.tc : Thread nD τ).loc main_arg2)))
              (rowsI (m ((c.tc : Thread nD τ).loc main_arg1)) (m ((c.tc : Thread nD τ).loc main_arg3)))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v21).trans (by
      rw [resC, resB, keepB_main_v0, resA, keepA_main_arg1, keepA_main_arg3,
        keepB_main_arg4, keepA_main_arg4, keepB_main_arg5, keepA_main_arg5, keepB_main_arg6, keepA_main_arg6, keepB_main_arg7, keepA_main_arg7]),
    (h c main_arg0).trans (by rw [keepC_main_arg0, keepB_main_arg0, keepA_main_arg0]),
    (h c main_arg1).trans (by rw [keepC_main_arg1, keepB_main_arg1, keepA_main_arg1]),
    (h c main_arg2).trans (by rw [keepC_main_arg2, keepB_main_arg2, keepA_main_arg2]),
    (h c main_arg3).trans (by rw [keepC_main_arg3, keepB_main_arg3, keepA_main_arg3]),
    (h c main_arg4).trans (by rw [keepC_main_arg4, keepB_main_arg4, keepA_main_arg4]),
    (h c main_arg5).trans (by rw [keepC_main_arg5, keepB_main_arg5, keepA_main_arg5]),
    (h c main_arg6).trans (by rw [keepC_main_arg6, keepB_main_arg6, keepA_main_arg6]),
    (h c main_arg7).trans (by rw [keepC_main_arg7, keepB_main_arg7, keepA_main_arg7])⟩)
    (run_line m ρ)

end Cert.ReferenceIdeal.Line

end
-- ==== Proof.RefValue.lean ====
/-
  The reference's result is the edge score.

  Read at an edge e, the reference's term is: the 512-wide row made of the two gathered rows side by side, against the
  rows of W1 (the product with W1 transposed), plus b1, rectified; against W2's row, plus b2; then
  1 / (1 + exp (-x)) · 5. The 512-term sum splits into the sum over the left 256 columns, where the row holds the
  gathered user row, and the sum over the right 256, where it holds the gathered item row; and
  1 / (1 + exp (-x)) is the logistic function by its definition on the extended reals.
-/
import proofs.«104762_j64656437674425_1_alg».proof.Proof.RefTerm
import proofs.«104762_j64656437674425_1_alg».proof.Proof.EdgeScore
import proofs.«104762_j64656437674425_1_alg».proof.Proof.LibPlainDot
import proofs.«104762_j64656437674425_1_alg».proof.Proof.LibRowBias
import Idealize.ShloMosaic.Lib.IdealHost
import Idealize.ShloMosaic.Lib.Pipeline.Value
import Idealize.ShloMosaic.Lib.ValueLayout

noncomputable section

open scoped BigOperators

namespace Cert.ReferenceIdeal.Line

open Cert.ReferenceIdeal Cert.ReferenceIdeal.Gen Cert.EdgeScore Idealize.ShloMosaic Idealize.ShloMosaic.ValueIdx

/-- The first layer's product is a plain [160000, 512] by [512, 256] product. -/
theorem dotA_plain : dot_S160000x512_S512x256_S160000x256_1_0_0_1_n_n = DotDims.plain 160000 512 256 := rfl
/-- The second layer's product is a plain [160000, 256] by [256, 1] product. -/
theorem dotB_plain : dot_S160000x256_S256x1_S160000x1_1_0_0_1_n_n = DotDims.plain 160000 256 1 := rfl

variable (xs xd : FVec Ideal S160000x256 .f32) (W1 : FVec Ideal S256x512 .f32) (b1 : FVec Ideal S256 .f32)
  (W2 : FVec Ideal S1x256 .f32) (b2 : FVec Ideal S1 .f32)

/-- The left 256 columns of the side-by-side row are the first array's row. -/
theorem concat_lo (e : Fin 160000) (k : Fin 256) :
    concatenate S160000x512 1 [⟨S160000x256, xs⟩, ⟨S160000x256, xd⟩] concatenates_S160000x256_S160000x256_S160000x512_d1 (ix2 e (lo k))
      = xs (ix2 e k) :=
  concatenate_pair_apply_left (1 : Fin 2) xs xd _ (ix2 e (lo k)) rfl (ix2 e k) fun b => by
    match b with
    | ⟨0, _⟩ => rfl
    | ⟨1, _⟩ => rfl

/-- The right 256 columns are the second array's row. -/
theorem concat_hi (e : Fin 160000) (k : Fin 256) :
    concatenate S160000x512 1 [⟨S160000x256, xs⟩, ⟨S160000x256, xd⟩] concatenates_S160000x256_S160000x256_S160000x512_d1 (ix2 e (hi k))
      = xd (ix2 e k) :=
  concatenate_pair_apply_right (1 : Fin 2) xs xd _ (ix2 e (hi k)) rfl rfl (ix2 e k)
    (fun b hb => by
      match b with
      | ⟨0, _⟩ => rfl
      | ⟨1, _⟩ => exact absurd rfl hb)
    (by show k.val + 256 = 256 + k.val; omega)

/-- The reference's logit at edge e is the spec's. -/
theorem logitOf_apply (e : Fin 160000) :
    logitOf (F := Ideal) xs xd W1 b1 W2 b2 (ix2 e (0 : Fin 1)) = logit xs xd W1 b1 W2 b2 e := by
  unfold logitOf logit
  rw [addf_apply, Cert.RowBias.hostRows_apply b2 bcast_S1_S1x1_1 bcast_S1x1_S160000x1_0_1 e (0 : Fin 1), dotB_plain]
  refine congrArg (· + _) ((Cert.PlainDot.dotGeneral_transposed_apply (φ₁ := .f32) (φ₂ := .f32) none .single _ W2
    transposes_S1x256_S256x1_1_0 e (0 : Fin 1)).trans (Finset.sum_congr rfl fun j _ => ?_))
  rw [maximumf_apply, Cert.RowBias.splat_apply, constant_apply]
  unfold EdgeScore.hidden EdgeScore.preact
  refine congrArg (· * _) (congrArg₂ max ?_ rfl)
  rw [addf_apply, Cert.RowBias.hostRows_apply b1 bcast_S256_S1x256_1 bcast_S1x256_S160000x256_0_1 e j, dotA_plain]
  refine congrArg (· + _) ((Cert.PlainDot.dotGeneral_transposed_apply (φ₁ := .f32) (φ₂ := .f32) none .single _ W1
    transposes_S256x512_S512x256_1_0 e j).trans ?_)
  rw [sum_split]
  simp only [concat_lo, concat_hi]

/-- 1 / (1 + exp (-x)) · 5, entry by entry, is the logistic function times 5. -/
theorem sigmoid5_apply (x : FVec Ideal S160000x1 .f32) (i : S160000x1.Idx) :
    sigmoid5 (F := Ideal) x i = Ideal.logistic (x i) * Ideal.ofBits .f32 0x40A00000#32 := by
  unfold sigmoid5
  rw [mulf_apply, Cert.RowBias.splat_apply, constant_apply]
  refine congrArg (· * _) ?_
  show Ideal.div (broadcastInDim S160000x1 ![] bcast_S_S160000x1 (constant (F := Ideal) S_ .f32 0x3F800000#32) i)
      (broadcastInDim S160000x1 ![] bcast_S_S160000x1 (constant (F := Ideal) S_ .f32 0x3F800000#32) i + Ideal.exp (-(x i))) = _
  rw [Cert.RowBias.splat_apply, constant_apply, Ideal.ofBits_one_f32]
  rfl

/-- The reference's result array is the score of the gathered rows. -/
theorem scoreOf_eq : scoreOf (F := Ideal) xs xd W1 b1 W2 b2 = score xs xd W1 b1 W2 b2 := by
  funext i
  obtain ⟨e, u, rfl⟩ : ∃ (e : Fin 160000) (u : Fin 1), i = ix2 e u := ⟨i 0, i 1, eq_ix2 i⟩
  obtain rfl : u = 0 := Subsingleton.elim _ _
  unfold scoreOf
  rw [sigmoid5_apply, logitOf_apply]
  rfl

end Cert.ReferenceIdeal.Line

end
-- ==== Proof.Bridge.lean ====
/-
  The two programs gather the same rows.

  The kernel's program and the reference gather the user rows and the item rows with the same operations, in the same
  order, over the same constants: the two gathered arrays are one function of the table and the index vector, whatever
  the float values are.
-/
import proofs.«104762_j64656437674425_1_alg».proof.Proof.KHost
import proofs.«104762_j64656437674425_1_alg».proof.Proof.RefTerm

noncomputable section

namespace Cert.Gathered

open Idealize.ShloMosaic

variable {F : FTy → Type} [FloatOps F]

theorem rowsU_eq (tab : (⟨Cert.KernelIdeal.S100000x256, .f32⟩ : BufTy).Contents (Elt F))
    (idx : (⟨Cert.KernelIdeal.S160000, .i32⟩ : BufTy).Contents (Elt F)) :
    Cert.KernelIdeal.Entry.rowsU tab idx = Cert.ReferenceIdeal.Line.rowsU tab idx := rfl

theorem rowsI_eq (tab : (⟨Cert.KernelIdeal.S50000x256, .f32⟩ : BufTy).Contents (Elt F))
    (idx : (⟨Cert.KernelIdeal.S160000, .i32⟩ : BufTy).Contents (Elt F)) :
    Cert.KernelIdeal.Entry.rowsI tab idx = Cert.ReferenceIdeal.Line.rowsI tab idx := rfl

end Cert.Gathered

end
-- ==== Proof.lean ====
/-
  An edge-score predictor: for each of 160000 edges, the user row and the item row its two indices select are
  gathered, laid side by side, passed through a 512 → 256 layer with a rectifier and a 256 → 1 layer, and the logistic
  function of the result is scaled by 5.

  The kernel gathers on the host exactly as the reference does, then runs the two layers block by block, 4000 edges
  at a time, with the first layer split in two: the user rows against the left 256 columns of W1 and the item rows
  against the right 256. On the extended reals the reference's 512-term sum is the sum of those two 256-term sums,
  narrowing a value changes nothing, and the logistic operation is 1 / (1 + exp (-x)); so both programs end with the
  same array, `Cert.EdgeScore.score` of the gathered rows and the parameters.

  The three frames: the kernel's two are the generated frame runs; the reference's is its run as a straight line of
  host operations with the result dropped. The idealization rewrote nothing, so there is nothing to preserve.
-/
import proofs.«104762_j64656437674425_1_alg».proof.Defs
import proofs.«104762_j64656437674425_1_alg».proof.Proof.Gen.Kernel
import proofs.«104762_j64656437674425_1_alg».proof.Proof.Gen.Kernel.Frame
import proofs.«104762_j64656437674425_1_alg».proof.Proof.Gen.KernelIdeal
import proofs.«104762_j64656437674425_1_alg».proof.Proof.Gen.KernelIdeal.Frame
import proofs.«104762_j64656437674425_1_alg».proof.Proof.Gen.KernelIdeal.Value
import proofs.«104762_j64656437674425_1_alg».proof.Proof.Gen.ReferenceIdeal
import proofs.«104762_j64656437674425_1_alg».proof.Proof.Gen.Pre_finite_inputs
import proofs.«104762_j64656437674425_1_alg».proof.Proof.KValue
import proofs.«104762_j64656437674425_1_alg».proof.Proof.RefValue
import proofs.«104762_j64656437674425_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- Both programs end with the score array of the gathered rows: the kernel's output blocks cover it, the reference's
    term is it index by index, and the rows the two programs gather are the same. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Line.run (F := Ideal) m' ρ')
  obtain ⟨a0, a1, a2, a3, a4, a5, a6, a7⟩ := hagree c
  rw [a0, a1, a2, a3, a4, a5, a6, a7, Cert.ReferenceIdeal.Line.scoreOf_eq]
  unfold Cert.KernelIdeal.Final.G
  rw [Cert.Gathered.rowsU_eq, Cert.Gathered.rowsI_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
